-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S1600000 : Shape := ⟨1, ![1600000]⟩
abbrev S128x256 : Shape := ⟨2, ![128, 256]⟩
abbrev S256 : Shape := ⟨1, ![256]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_

variable [Facts]

def fn {F : FTy → Type} [FloatOps F] (main_arg0 : FVec F S100000x128 .f32) (main_arg1 : IVec S1600000 32) (main_arg2 : IVec S1600000 32) (main_arg3 : FVec F S128x256 .f32) (main_arg4 : FVec F S256 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x256 .f32 := Host.absf main_arg3
  let main_cst_0 : FVec F S_ .f32 := constant S_ .f32 0x7F800000#32
  let main_v5 : FVec F S128x256 .f32 := broadcastInDim S128x256 ![] bcast_S_S128x256 main_cst_0
  let main_v6 : IVec S128x256 1 := cmpf .olt main_v4 main_v5
  let main_c_1 : IVec S_ 1 := constantI S_ 1 1#1
  let main_v7 : IVec S_ 1 := (fun x v => Host.reduce IntOp.andi x v reducesTo_S128x256_S_d0_1 h_S_) main_v6 main_c_1
  let main_v8 : IVec S_ 1 := andi main_v3 main_v7
  let main_v9 : FVec F S256 .f32 := Host.absf main_arg4
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  main_v13
-- ==== Kernel.lean ====
abbrev S100000x128 : Shape := ⟨2, ![100000, 128]⟩
abbrev S1600000 : Shape := ⟨1, ![1600000]⟩
abbrev S128x256 : Shape := ⟨2, ![128, 256]⟩
abbrev S256 : Shape := ⟨1, ![256]⟩
abbrev S_ : Shape := ⟨0, ![]⟩
abbrev S1600000x1 : Shape := ⟨2, ![1600000, 1]⟩
abbrev S1600000x128 : Shape := ⟨2, ![1600000, 128]⟩
abbrev S100000x256 : Shape := ⟨2, ![100000, 256]⟩
abbrev S10000x128 : Shape := ⟨2, ![10000, 128]⟩
abbrev S10000x256 : Shape := ⟨2, ![10000, 256]⟩
abbrev S1x256 : Shape := ⟨2, ![1, 256]⟩

abbrev nBuf : Space → Nat
  | .hbm => 22
  | .vmem => 6
  | .smem => 0
  | _ => 0

abbrev bufTy : (tb : Table) → Fin (tcTables nBuf tb) → BufTy
  | .hbm, ⟨0, _⟩ => ⟨S100000x128, .f32⟩
  | .hbm, ⟨1, _⟩ => ⟨S1600000, .i32⟩
  | .hbm, ⟨2, _⟩ => ⟨S1600000, .i32⟩
  | .hbm, ⟨3, _⟩ => ⟨S128x256, .f32⟩
  | .hbm, ⟨4, _⟩ => ⟨S256, .f32⟩
  | .hbm, ⟨5, _⟩ => ⟨S_, .i32⟩
  | .hbm, ⟨6, _⟩ => ⟨S1600000, .i32⟩
  | .hbm, ⟨7, _⟩ => ⟨S1600000, .i1⟩
  | .hbm, ⟨8, _⟩ => ⟨S_, .i32⟩
  | .hbm, ⟨9, _⟩ => ⟨S1600000, .i32⟩
  | .hbm, ⟨10, _⟩ => ⟨S1600000, .i32⟩
  | .hbm, ⟨11, _⟩ => ⟨S1600000, .i32⟩
  | .hbm, ⟨12, _⟩ => ⟨S1600000x1, .i32⟩
  | .hbm, ⟨13, _⟩ => ⟨S1600000x128, .f32⟩
  | .hbm, ⟨14, _⟩ => ⟨S_, .f32⟩
  | .hbm, ⟨15, _⟩ => ⟨S100000x128, .f32⟩
  | .hbm, ⟨16, _⟩ => ⟨S1600000x1, .i32⟩
  | .hbm, ⟨17, _⟩ => ⟨S100000x128, .f32⟩
  | .hbm, ⟨18, _⟩ => ⟨S100000x128, .f32⟩
  | .hbm, ⟨19, _⟩ => ⟨S100000x128, .bf16⟩
  | .hbm, ⟨20, _⟩ => ⟨S128x256, .bf16⟩
  | .hbm, ⟨21, _⟩ => ⟨S100000x256, .f32⟩
  | .local _ .vmem, ⟨0, _⟩ => ⟨S10000x128, .bf16⟩
  | .local _ .vmem, ⟨1, _⟩ => ⟨S10000x128, .bf16⟩
  | .local _ .vmem, ⟨2, _⟩ => ⟨S128x256, .bf16⟩
  | .local _ .vmem, ⟨3, _⟩ => ⟨S256, .f32⟩
  | .local _ .vmem, ⟨4, _⟩ => ⟨S10000x256, .f32⟩
  | .local _ .vmem, ⟨5, _⟩ => ⟨S10000x256, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S10000x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bitsLt_bf16_f32 : FTy.bits .bf16 < FTy.bits .f32
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S256_S256_0 : ∀ a, (![0] : Fin 1 → Nat) a + S256.size a ≤ S256.size a
  h_S256 : 0 < S256.numel
  shapeCasts_S256_S1x256 : S256.ShapeCasts S1x256
  shapeCasts_S1x256_S1x256 : S1x256.ShapeCasts S1x256
  broadcasts_S1x256_S10000x256 : S1x256.Broadcasts S10000x256
  inb_S10000x256_S10000x256_0_0 : ∀ a, (![0, 0] : Fin 2 → Nat) a + S10000x256.size a ≤ S10000x256.size a
  h_S10000x256 : 0 < S10000x256.numel
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S10000x128_S128x256_S10000x256_1_0_0_1_n_n_wf : DotDims.WF S10000x128 S128x256 S10000x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .bf16 = 32 ∨ (Rect.block (s := S100000x128) S10000x128.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x256.size a ≤ S128x256.size a
  hwx0_1 : ∀ i : grid0.Coords, EltTy.bits .bf16 = 32 ∨ (Rect.block (s := S128x256) S128x256.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256.size a ≤ S256.size a
  hwx0_2 : ∀ i : grid0.Coords, EltTy.bits .f32 = 32 ∨ (Rect.block (s := S256) S256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S10000x256.size a ≤ S100000x256.size a
  hwx0_3 : ∀ i : grid0.Coords, EltTy.bits .f32 = 32 ∨ (Rect.block (s := S100000x256) S10000x256.size (cc0_transform_3 i) (hinb0_3 i)).WholeWords (EltTy.packing .f32)

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S10000x128_S128x256_S10000x256_1_0_0_1_n_n : DotDims S10000x128 S128x256 S10000x256 where
  lhsContracting := [1]
  rhsContracting := [0]
  lhsNonContracting := [0]
  rhsNonContracting := [1]
  lhsBatch := []
  rhsBatch := []
  wf := dot_S10000x128_S128x256_S10000x256_1_0_0_1_n_n_wf

abbrev win0_0 : Pipeline.Window sig grid0 :=
  Pipeline.Window.ofSpec (Memref.whole main_v11) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v12) S128x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v13) S10000x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S100000x128 : Shape := ⟨2, ![100000, 128]⟩
abbrev S1600000 : Shape := ⟨1, ![1600000]⟩
abbrev S128x256 : Shape := ⟨2, ![128, 256]⟩
abbrev S256 : Shape := ⟨1, ![256]⟩
abbrev S_ : Shape := ⟨0, ![]⟩
abbrev S1600000x1 : Shape := ⟨2, ![1600000, 1]⟩
abbrev S1600000x128 : Shape := ⟨2, ![1600000, 128]⟩
abbrev S100000x256 : Shape := ⟨2, ![100000, 256]⟩
abbrev S1x256 : Shape := ⟨2, ![1, 256]⟩

abbrev nBuf : Space → Nat
  | .hbm => 23
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S1600000, .i32⟩
  | .hbm, ⟨2, _⟩ => ⟨S1600000, .i32⟩
  | .hbm, ⟨3, _⟩ => ⟨S128x256, .f32⟩
  | .hbm, ⟨4, _⟩ => ⟨S256, .f32⟩
  | .hbm, ⟨5, _⟩ => ⟨S_, .i32⟩
  | .hbm, ⟨6, _⟩ => ⟨S1600000, .i32⟩
  | .hbm, ⟨7, _⟩ => ⟨S1600000, .i1⟩
  | .hbm, ⟨8, _⟩ => ⟨S_, .i32⟩
  | .hbm, ⟨9, _⟩ => ⟨S1600000, .i32⟩
  | .hbm, ⟨10, _⟩ => ⟨S1600000, .i32⟩
  | .hbm, ⟨11, _⟩ => ⟨S1600000, .i32⟩
  | .hbm, ⟨12, _⟩ => ⟨S1600000x1, .i32⟩
  | .hbm, ⟨13, _⟩ => ⟨S1600000x128, .f32⟩
  | .hbm, ⟨14, _⟩ => ⟨S_, .f32⟩
  | .hbm, ⟨15, _⟩ => ⟨S100000x128, .f32⟩
  | .hbm, ⟨16, _⟩ => ⟨S1600000x1, .i32⟩
  | .hbm, ⟨17, _⟩ => ⟨S100000x128, .f32⟩
  | .hbm, ⟨18, _⟩ => ⟨S100000x128, .f32⟩
  | .hbm, ⟨19, _⟩ => ⟨S100000x256, .f32⟩
  | .hbm, ⟨20, _⟩ => ⟨S1x256, .f32⟩
  | .hbm, ⟨21, _⟩ => ⟨S100000x256, .f32⟩
  | .hbm, ⟨22, _⟩ => ⟨S100000x256, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S256_S1x256_1 : S256.BroadcastsInDim S1x256 (![1] : Fin 1 → Fin S1x256.rank)
  bcast_S1x256_S100000x256_0_1 : S1x256.BroadcastsInDim S100000x256 (![0, 1] : Fin 2 → Fin S100000x256.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x256_S100000x256_1_0_0_1_n_n_wf : DotDims.WF S100000x128 S128x256 S100000x256 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x256_S100000x256_1_0_0_1_n_n : DotDims S100000x128 S128x256 S100000x256 where
  lhsContracting := [1]
  rhsContracting := [0]
  lhsNonContracting := [0]
  rhsNonContracting := [1]
  lhsBatch := []
  rhsBatch := []
  wf := dot_S100000x128_S128x256_S100000x256_1_0_0_1_n_n_wf

class Facts : Prop extends Facts₀ where

variable [Facts]
-- ==== Proof.LibDot.lean ====
/-
  A plain matrix product read at an entry, at the ideal values.

  Every product in the network is "rows by columns": an `M × K` array against a `K × N` array, contracting the one
  shared axis, no batch axis. At the ideal values both the kernel's product into a zero accumulator and the host's
  product are, at entry `(p, q)`, the sum over `k` of `lhs (p, k) · rhs (k, q)`: no rounding and no order of
  accumulation is left in it. The two lemmas say so once, for all sizes; a printed dimension record of this kind is
  `DotDims.plain M K N` up to its well-formedness proof.
-/
import Idealize.ShloMosaic.PureOps.Ideal.Laws
import Idealize.ShloMosaic.Lib.ValueIdx

noncomputable section

namespace Cert.GNN

open Idealize.ShloMosaic Idealize.ShloMosaic.ValueIdx

variable {M K N : ℕ}

theorem plain_lhs0 (i : (⟨2, ![M, N]⟩ : Shape).Idx) (κ : (DotDims.plain M K N).contr.Idx) :
    ((DotDims.plain M K N).lhsIdx i κ 0).val = (i 0).val := rfl
theorem plain_lhs1 (i : (⟨2, ![M, N]⟩ : Shape).Idx) (κ : (DotDims.plain M K N).contr.Idx) :
    ((DotDims.plain M K N).lhsIdx i κ 1).val = (κ ⟨0, Nat.one_pos⟩).val := rfl
theorem plain_rhs0 (i : (⟨2, ![M, N]⟩ : Shape).Idx) (κ : (DotDims.plain M K N).contr.Idx) :
    ((DotDims.plain M K N).rhsIdx i κ 0).val = (κ ⟨0, Nat.one_pos⟩).val := rfl
theorem plain_rhs1 (i : (⟨2, ![M, N]⟩ : Shape).Idx) (κ : (DotDims.plain M K N).contr.Idx) :
    ((DotDims.plain M K N).rhsIdx i κ 1).val = (i 1).val := rfl

/-- The sum over the contraction index of a plain product, re-indexed by `k : Fin K`. -/
theorem plain_sum {φ₁ φ₂ : FTy} (lhs : FVec Ideal ⟨2, ![M, K]⟩ φ₁) (rhs : FVec Ideal ⟨2, ![K, N]⟩ φ₂) (p : Fin M) (q : Fin N) :
    (∑ κ : (DotDims.plain M K N).contr.Idx,
        lhs ((DotDims.plain M K N).lhsIdx (ix2 p q) κ) * rhs ((DotDims.plain M K N).rhsIdx (ix2 p q) κ))
      = ∑ k : Fin K, lhs (ix2 p k) * rhs (ix2 k q) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact plain_lhs0 _ _
      | ⟨1, _⟩ => exact (plain_lhs1 _ _).trans hk)
  have er : (DotDims.plain M K N).rhsIdx (ix2 p q) ((contrEquiv1 (DotDims.plain M K N) K rfl rfl).symm k) = ix2 k q :=
    funext fun a => Fin.ext (by
      match a with
      | ⟨0, _⟩ => exact (plain_rhs0 _ _).trans hk
      | ⟨1, _⟩ => exact plain_rhs1 _ _)
  rw [el, er]

/-- A kernel's plain product into the zero accumulator, read at entry `(p, q)`. -/
theorem matmul_plain_zero_apply {φ₁ φ₂ : FTy} (prec : Option ContractPrecision)
    (lhs : FVec Ideal ⟨2, ![M, K]⟩ φ₁) (rhs : FVec Ideal ⟨2, ![K, N]⟩ φ₂) (p : Fin M) (q : Fin N) :
    FloatOps.matmul (DotDims.plain M K N) prec lhs rhs (constant ⟨2, ![M, N]⟩ .f32 0x00000000#32) (ix2 p q)
      = ∑ k : Fin K, lhs (ix2 p k) * rhs (ix2 k q) := by
  rw [Ideal.matmul_constant_zero_apply]
  exact plain_sum lhs rhs p q

/-- The host's plain product, read at entry `(p, q)`. -/
theorem dotGeneral_plain_apply {φ₁ φ₂ : FTy} (prec : Option ContractPrecision) (sched : HostSchedule)
    (lhs : FVec Ideal ⟨2, ![M, K]⟩ φ₁) (rhs : FVec Ideal ⟨2, ![K, N]⟩ φ₂) (p : Fin M) (q : Fin N) :
    FloatOps.dotGeneral (DotDims.plain M K N) prec sched lhs rhs (ix2 p q)
      = ∑ k : Fin K, lhs (ix2 p k) * rhs (ix2 k q) := by
  rw [Ideal.dotGeneral_apply]
  exact plain_sum lhs rhs p q

end Cert.GNN

end
-- ==== Proof.Dense.lean ====
/-
  The dense layer of a graph convolution, as one function of its three arrays.

  After the neighbour sums and the self loop have produced the node features `h` (one row of `K` numbers per
  node), the layer is `out (p, q) = (sum over k of h (p, k) * w (k, q)) + b q`. This file states that function over
  the extended reals, for any number of rows, and reads the two ways a program writes the product, a product into a
  zero accumulator and a general dot product, as that sum.
-/
import proofs.«127564_j68908455297307_1_alg».proof.Proof.LibDot
import Idealize.ShloMosaic.Lib.ValueLayout
import Idealize.ShloMosaic.Lib.Pipeline.Value

noncomputable section

namespace Cert.GraphConv

open Idealize.ShloMosaic Idealize.ShloMosaic.ValueIdx

/-- The dense layer: row `p` of `h` against column `q` of `w`, plus the bias of column `q`. -/
def dense {M K N : ℕ} (h : (⟨2, ![M, K]⟩ : Shape).Idx → EReal) (w : (⟨2, ![K, N]⟩ : Shape).Idx → EReal)
    (b : (⟨1, ![N]⟩ : Shape).Idx → EReal) : (⟨2, ![M, N]⟩ : Shape).Idx → EReal :=
  fun i => (∑ k : Fin K, h (ix2 (i 0) k) * w (ix2 k (i 1))) + b (ix1 (i 1))

theorem dense_apply {M K N : ℕ} (h : (⟨2, ![M, K]⟩ : Shape).Idx → EReal) (w : (⟨2, ![K, N]⟩ : Shape).Idx → EReal)
    (b : (⟨1, ![N]⟩ : Shape).Idx → EReal) (p : Fin M) (q : Fin N) :
    dense h w b (ix2 p q) = (∑ k : Fin K, h (ix2 p k) * w (ix2 k q)) + b (ix1 q) := rfl

/-- The layer at an entry looks at one row of `h`, one column of `w` and one entry of `b`: blocks `h'`, `w'`, `b'`
    that hold that row, that column and that entry give the same value at their own coordinates `(p', q')`. -/
theorem dense_of_blocks {M M' K N N' : ℕ} (h : (⟨2, ![M, K]⟩ : Shape).Idx → EReal) (h' : (⟨2, ![M', K]⟩ : Shape).Idx → EReal)
    (w : (⟨2, ![K, N]⟩ : Shape).Idx → EReal) (w' : (⟨2, ![K, N']⟩ : Shape).Idx → EReal)
    (b : (⟨1, ![N]⟩ : Shape).Idx → EReal) (b' : (⟨1, ![N']⟩ : Shape).Idx → EReal)
    (p' : Fin M') (q' : Fin N') (i : (⟨2, ![M, N]⟩ : Shape).Idx)
    (hh : ∀ k : Fin K, h' (ix2 p' k) = h (ix2 (i 0) k)) (hw : ∀ k : Fin K, w' (ix2 k q') = w (ix2 k (i 1)))
    (hb : b' (ix1 q') = b (ix1 (i 1))) :
    dense h' w' b' (ix2 p' q') = dense h w b i := by
  show (∑ k : Fin K, h' (ix2 p' k) * w' (ix2 k q')) + b' (ix1 q')
    = (∑ k : Fin K, h (ix2 (i 0) k) * w (ix2 k (i 1))) + b (ix1 (i 1))
  rw [hb]
  exact congrArg (· + b (ix1 (i 1))) (Finset.sum_congr rfl fun k _ => by rw [hh k, hw k])

end Cert.GraphConv

end
-- ==== Proof.RefDense.lean ====
/-
  The reference's result is the dense layer of its aggregated features.

  The reference computes the node features `h` (neighbour sums plus the self loop), then `h` times the weight as one
  general dot product, then adds the bias broadcast first to one row and then down all the rows. Read at an entry
  `(p, q)`: the dot product is the sum over `k` of `h (p, k) * w (k, q)`, and the twice broadcast bias is `b q`.
  That is `dense h w b`; the features `h` themselves are never opened.
-/
import proofs.«127564_j68908455297307_1_alg».proof.Proof.Gen.ReferenceIdeal.Read
import proofs.«127564_j68908455297307_1_alg».proof.Proof.Dense

noncomputable section

namespace Cert.ReferenceIdeal.RefDense

open Cert.ReferenceIdeal Cert.ReferenceIdeal.Gen Cert.ReferenceIdeal.Read
open Idealize.ShloMosaic Idealize.ShloMosaic.ValueIdx Cert.GraphConv

/-- The left operand of the product is read at row `i 0`, column `k`. -/
theorem lhs_at (i : S100000x256.Idx) (k : Fin 128) : lidx_main_v11 i k = ix2 (i 0) k :=
  funext fun a => Fin.ext (by match a with | ⟨0, _⟩ => rfl | ⟨1, _⟩ => rfl)

/-- The right operand is read at row `k`, column `i 1`. -/
theorem rhs_at (i : S100000x256.Idx) (k : Fin 128) : ridx_main_v11 i k = ix2 k (i 1) :=
  funext fun a => Fin.ext (by match a with | ⟨0, _⟩ => rfl | ⟨1, _⟩ => rfl)

/-- The bias, broadcast to one row and then to every row, is read at column `i 1`. -/
theorem bias_at (i : S100000x256.Idx) : idx_main_v12 (idx_main_v13 i) = ix1 (i 1) :=
  funext fun a => Fin.ext (by match a with | ⟨0, _⟩ => rfl)

/-- The reference's last stage is the dense layer of its aggregated features, the weight and the bias. -/
theorem result_eq (x0 : (⟨S100000x128, .f32⟩ : BufTy).Contents (Elt Ideal)) (x1 x2 : (⟨S1600000, .i32⟩ : BufTy).Contents (Elt Ideal))
    (x3 : (⟨S128x256, .f32⟩ : BufTy).Contents (Elt Ideal)) (x4 : (⟨S256, .f32⟩ : BufTy).Contents (Elt Ideal)) :
    val_main_v14 (F := Ideal) x0 x1 x2 x3 x4
      = dense (M := 100000) (K := 128) (N := 256) (val_main_v10 (F := Ideal) x0 x1 x2) x3 x4 := by
  funext i
  rw [val_main_v14_apply, val_main_v11_apply, val_main_v13_apply, val_main_v12_apply]
  simp only [lhs_at, rhs_at, bias_at]
  rfl

end Cert.ReferenceIdeal.RefDense

end
-- ==== Proof.KernelDense.lean ====
/-
  The kernel's result array is the dense layer of the node features.

  The grid has ten points; point `t` takes rows `10000 t … 10000 t + 9999` of the node features (all 128 columns), the
  whole weight and the whole bias, and writes rows `10000 t … 10000 t + 9999` of the result. Its body is one product of
  the row block with the weight into a zero accumulator, plus the bias laid out as one row and repeated down the block.
  At entry `(p, q)` of the block that is the sum over `k` of `h (10000 t + p, k) * w (k, q)`, plus `b q`: the dense
  layer at row `10000 t + p`. The ten row blocks tile the result, so the result array is the dense layer everywhere.
  The arrays the windows stage are the node features and the weight after a change of number format, which changes
  nothing at the ideal values; the node features themselves (neighbour sums plus self loop) are kept as one closed term.
-/
import proofs.«127564_j68908455297307_1_alg».proof.Proof.Gen.KernelIdeal.Value
import proofs.«127564_j68908455297307_1_alg».proof.Proof.Dense
import Idealize.ShloMosaic.Lib.StableHlo.Run
import Idealize.ShloMosaic.Lib.Tactic

noncomputable section

namespace Cert.KernelIdeal.KDense

open Cert.KernelIdeal Cert.KernelIdeal.Gen Cert.KernelIdeal.Value
open Idealize.ShloMosaic Idealize.ShloMosaic.TcCoe Idealize.SL.Sem Idealize.ShloMosaic.ValueIdx Cert.GraphConv
open Idealize.ShloMosaic.Pipeline (Dat)

variable (m : (ℓ : Loc nD τ sig) → Buf (Elt Ideal) ℓ) (ρ : Dev nD → PrngReg)

theorem zero2 : (![0, 0] : Fin 2 → Nat) = fun _ => 0 := funext fun a => by fin_cases a <;> rfl
theorem zero1 : (![0] : Fin 1 → Nat) = fun _ => 0 := funext fun a => by fin_cases a <;> rfl

/-! ## The body at an entry of the block -/

/-- The block's product into the zero accumulator, at `(p, q)`: row `p` of the left block against column `q` of the right. -/
theorem product_apply (a : FVec Ideal S10000x128 .bf16) (b : FVec Ideal S128x256 .bf16) (p : Fin 10000) (q : Fin 256) :
    matmul dot_S10000x128_S128x256_S10000x256_1_0_0_1_n_n none a b (constant S10000x256 .f32 0x00000000#32) (ix2 p q)
      = ∑ k : Fin 128, a (ix2 p k) * b (ix2 k q) :=
  Cert.GNN.matmul_plain_zero_apply (M := 10000) (K := 128) (N := 256) none a b p q

/-- The bias laid out as one row and repeated down the block, at `(p, q)`: the bias of column `q`. -/
theorem bias_apply (x2 : FVec Ideal S256 .f32) (p : Fin 10000) (q : Fin 256) :
    broadcastTo S10000x256 (shapeCast S1x256 (shapeCast S1x256 x2 shapeCasts_S256_S1x256) shapeCasts_S1x256_S1x256)
        broadcasts_S1x256_S10000x256 (ix2 p q) = x2 (ix1 q) := by
  rw [broadcastTo_1b_ab_apply, shapeCast_self, shapeCast_a_1a_apply]

/-- What the body stores, at `(p, q)`: the dense layer of the three loaded blocks. -/
theorem body_apply (x0 : Vec Ideal S10000x128 .bf16) (x1 : Vec Ideal S128x256 .bf16) (x2 : Vec Ideal S256 .f32)
    (p : Fin 10000) (q : Fin 256) :
    k0_pay1 x0 x1 x2 (ix2 p q) = dense (M := 10000) (K := 128) (N := 256) x0 x1 x2 (ix2 p q) := by
  unfold k0_pay1
  rw [addf_apply, product_apply, bias_apply, shapeCast_self, shapeCast_self, dense_apply]

/-! ## Where each window's block sits -/

/-- The block indices over the grid: the feature window and the result window move down the rows together, one block
    per point; the weight and the bias stay at block zero. -/
theorem index_facts : ∀ t : Fin cfg0.N,
    win0_0.index t (0 : Fin 2) = win0_3.index t (0 : Fin 2) ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = t.val ∧ win0_3.index t (1 : Fin 2) = 0 :=
  (by decide +kernel : ∀ t : Fin grid0.N, _)

/-- A block whose entry `(p, q)` is the array's entry at that block position is the array read through the block. -/
theorem cut_eq_read_of (t : Fin cfg0.N) (X : Vec Ideal S10000x256 .f32) (G : S100000x256.Idx → EReal)
    (h : ∀ (p : Fin 10000) (q : Fin 256), X (ix2 p q) = G (((cfg0.win 3).blk t).view.emb (ix2 p q))) :
    (cfg0.win 3).cut (grid0.coords t) X = ((cfg0.win 3).blk t).view.read (Elt Ideal) G := by
  funext j
  obtain ⟨p, q, rfl⟩ : ∃ (p : Fin 10000) (q : Fin 256), j = ix2 p q := ⟨j 0, j 1, eq_ix2 j⟩
  exact h p q

/-- Row `p` of window 0's block at point `t` is row `10000 t + p` of its array: the feature window and the result
    window sit at the same row block. -/
theorem rows_block (A : FVec Ideal S100000x128 .bf16) (t : Fin cfg0.N) (p : Fin 10000) (q : Fin 256) (k : Fin 128) :
    ((cfg0.win 0).blk t).view.read (Elt Ideal) A (ix2 p k)
      = A (ix2 ((((cfg0.win 3).blk t).view.emb (ix2 p q)) 0) k) := by
  obtain ⟨e00, e01, -, -, -, -, -⟩ := index_facts t
  rw [View.read_apply]
  show A (((cfg0.win 0).blk t).view.emb (ix2 p k)) = _
  refine congrArg A (funext fun a => Fin.ext ?_)
  match a with
  | ⟨0, _⟩ => show win0_0.index t (0 : Fin 2) * 10000 + 1 * p.val = win0_3.index t (0 : Fin 2) * 10000 + 1 * p.val; omega
  | ⟨1, _⟩ => show win0_0.index t (1 : Fin 2) * 128 + 1 * k.val = k.val; omega

/-- Window 1's block at every point is its whole array. -/
theorem whole_block (A : FVec Ideal S128x256 .bf16) (t : Fin cfg0.N) (p : Fin 10000) (q : Fin 256) (k : Fin 128) :
    ((cfg0.win 1).blk t).view.read (Elt Ideal) A (ix2 k q)
      = A (ix2 k ((((cfg0.win 3).blk t).view.emb (ix2 p q)) 1)) := by
  obtain ⟨-, -, e10, e11, -, -, e31⟩ := index_facts t
  rw [View.read_apply]
  show A (((cfg0.win 1).blk t).view.emb (ix2 k q)) = _
  refine congrArg A (funext fun a => Fin.ext ?_)
  match a with
  | ⟨0, _⟩ => show win0_1.index t (0 : Fin 2) * 128 + 1 * k.val = k.val; omega
  | ⟨1, _⟩ => show win0_1.index t (1 : Fin 2) * 256 + 1 * q.val = win0_3.index t (1 : Fin 2) * 256 + 1 * q.val; omega

/-- Window 2's block at every point is its whole array. -/
theorem whole_row (A : FVec Ideal S256 .f32) (t : Fin cfg0.N) (p : Fin 10000) (q : Fin 256) :
    ((cfg0.win 2).blk t).view.read (Elt Ideal) A (ix1 q)
      = A (ix1 ((((cfg0.win 3).blk t).view.emb (ix2 p q)) 1)) := by
  obtain ⟨-, -, -, -, e20, -, e31⟩ := index_facts t
  rw [View.read_apply]
  show A (((cfg0.win 2).blk t).view.emb (ix1 q)) = _
  refine congrArg A (funext fun a => Fin.ext ?_)
  match a with
  | ⟨0, _⟩ => show win0_2.index t (0 : Fin 1) * 256 + 1 * q.val = win0_3.index t (1 : Fin 2) * 256 + 1 * q.val; omega

/-- The body on the three blocks of ANY three arrays, cut to the result window, is block `t` of their dense layer. -/
theorem block_eq (A0 : FVec Ideal S100000x128 .bf16) (A1 : FVec Ideal S128x256 .bf16) (A2 : FVec Ideal S256 .f32) (t : Fin cfg0.N) :
    (cfg0.win 3).cut (grid0.coords t)
        (k0_pay1 (((cfg0.win 0).blk t).view.read (Elt Ideal) A0) (((cfg0.win 1).blk t).view.read (Elt Ideal) A1)
          (((cfg0.win 2).blk t).view.read (Elt Ideal) A2))
      = ((cfg0.win 3).blk t).view.read (Elt Ideal) (dense (M := 100000) (K := 128) (N := 256) A0 A1 A2) := by
  refine cut_eq_read_of t _ _ fun p q => ?_
  exact (body_apply _ _ _ p q).trans
    (dense_of_blocks A0 (((cfg0.win 0).blk t).view.read (Elt Ideal) A0) A1 (((cfg0.win 1).blk t).view.read (Elt Ideal) A1)
      A2 (((cfg0.win 2).blk t).view.read (Elt Ideal) A2) p q (((cfg0.win 3).blk t).view.emb (ix2 p q))
      (fun k => rows_block A0 t p q k) (fun k => whole_block A1 t p q k) (whole_row A2 t p q))

/-! ## The arrays the windows stage, and the result -/

/-- The whole result: the dense layer of the three arrays the input windows stage, as the region finds them. -/
abbrev layer (c : Dev nD) : S100000x256.Idx → EReal :=
  dense (M := 100000) (K := 128) (N := 256) (V m c (Pipeline.arrRef spec0 0)) (V m c (Pipeline.arrRef spec0 1))
    (V m c (Pipeline.arrRef spec0 2))

/-- WHAT POINT `t` WRITES BACK is block `t` of the dense layer of the staged arrays. -/
theorem flushed_eq (c : Dev nD) (t : Fin cfg0.N) :
    (dats m 0 c).flushed 3 t = ((cfg0.win 3).blk t).view.read (Elt Ideal) (layer m c) := by
  rw [flushed3]
  unfold out0_3
  rw [View.canon_unit_zero zero2]
  simp only [View.ld_unit_zero (S := S10000x128) zero2, View.ld_unit_zero (S := S128x256) zero2,
    View.ld_unit_zero (S := S256) zero1]
  unfold iblk
  exact block_eq (V m c (Pipeline.arrRef spec0 0)) (V m c (Pipeline.arrRef spec0 1)) (V m c (Pipeline.arrRef spec0 2)) t

/-! ## The ten row blocks tile the result -/

/-- An entry of the result is in point `t`'s block iff each coordinate is in the block's range on its axis. -/
theorem mem_block (t : Fin cfg0.N) (i : S100000x256.Idx) :
    i ∈ ((cfg0.win 3).blk t).view.set ↔ ∀ a : Fin 2, win0_3.index t a * S10000x256.size a ≤ (i a).val
      ∧ (i a).val < win0_3.index t a * S10000x256.size a + S10000x256.size a := by
  show i ∈ ((View.whole main_v13).slice (win0_3.rect t)).set ↔ _
  rw [View.set_slice_whole, Rect.mem_set_unit]
  exact Iff.rfl

/-- Row `r` of the result lies in the block of point `r / 10000`. -/
theorem covered (i : S100000x256.Idx) :
    ∃ t : Fin cfg0.N, (cfg0.win 3).flush t = true ∧ i ∈ ((cfg0.win 3).blk t).view.set := by
  have hi0 : (i 0).val < 100000 := (i 0).isLt
  have hi1 : (i 1).val < 256 := (i 1).isLt
  have hN : cfg0.N = 10 := N_0
  obtain ⟨t, ht⟩ : ∃ t : Fin cfg0.N, t.val = (i 0).val / 10000 := ⟨⟨(i 0).val / 10000, by rw [hN]; omega⟩, rfl⟩
  obtain ⟨-, -, -, -, -, e30, e31⟩ := index_facts t
  refine ⟨t, flush0_3 t, ?_⟩
  rw [mem_block]
  intro a
  match a with
  | ⟨0, _⟩ =>
    show win0_3.index t (0 : Fin 2) * 10000 ≤ (i 0).val ∧ (i 0).val < win0_3.index t (0 : Fin 2) * 10000 + 10000
    omega
  | ⟨1, _⟩ =>
    show win0_3.index t (1 : Fin 2) * 256 ≤ (i 1).val ∧ (i 1).val < win0_3.index t (1 : Fin 2) * 256 + 256
    omega

/-- So the result array ends holding the dense layer of the staged arrays. -/
theorem final (c : Dev nD) : (dats m 0 c).arrAt 3 cfg0.N = layer m c :=
  (dats m 0 c).arrAt_eq_of_cover 3 (layer m c) (fun t _ => flushed_eq m c t) covered

/-! ## The staged arrays, from the arguments -/

/-- The node features: the features of each edge's source gathered, summed into the edge's destination, plus the
    node's own features. (Negative source indices are first wrapped by the number of nodes, as indexing does.) -/
def nodeFeatures (x0 : FVec Ideal S100000x128 .f32) (x1 x2 : IVec S1600000 32) : FVec Ideal S100000x128 .f32 :=
  addf (Host.scatterAdd (F := Ideal) scatter_S100000x128_S1600000x1_S1600000x128_1_0_0_1
      (broadcastInDim S100000x128 ![] bcast_S_S100000x128 (constant (F := Ideal) S_ .f32 0x00000000#32))
      (broadcastInDim S1600000x1 ![0] bcast_S1600000_S1600000x1_0 x2)
      (Host.gather gather_S100000x128_S1600000x1_S1600000x128_1_0_n_n_0_1_1128 x0
        (broadcastInDim S1600000x1 ![0] bcast_S1600000_S1600000x1_0
          (select (cmpi .slt x1 (broadcastInDim S1600000 ![] bcast_S_S1600000 (constantI S_ 32 0#32)))
            (addi x1 (broadcastInDim S1600000 ![] bcast_S_S1600000 (constantI S_ 32 100000#32))) x1))))
    x0

/-- A change of number format is the identity at the ideal values. -/
theorem truncf_id {s : Shape} (a : FVec Ideal s .f32) (h : FTy.bits .bf16 < FTy.bits .f32) :
    (truncf .bf16 a h : s.Idx → EReal) = a := funext fun _ => rfl

/-- Window 0's array is the node features: the change of number format before the call is the identity here. -/
theorem feats_eq (c : Dev nD) :
    (V m c (Pipeline.arrRef spec0 0) : S100000x128.Idx → EReal)
      = truncf .bf16 (nodeFeatures (m ((c : Thread nD τ).loc main_arg0)) (m ((c : Thread nD τ).loc main_arg1))
          (m ((c : Thread nD τ).loc main_arg2))) bitsLt_bf16_f32 := by
  show V m c main_v11 = _
  dsimp only [V, hostOps0]
  after_results
  rfl

/-- Window 1's array is the weight, likewise. -/
theorem wts_eq (c : Dev nD) :
    (V m c (Pipeline.arrRef spec0 1) : S128x256.Idx → EReal)
      = truncf (F := Ideal) (s := S128x256) (φ := .f32) .bf16 (m ((c : Thread nD τ).loc main_arg3)) bitsLt_bf16_f32 := by
  show V m c main_v12 = _
  dsimp only [V, hostOps0]
  after_results

/-- Window 2's array is the bias: no operation before the call writes it. -/
theorem bias_eq (c : Dev nD) :
    (V m c (Pipeline.arrRef spec0 2) : S256.Idx → EReal) = m ((c : Thread nD τ).loc main_arg4) :=
  V_main_arg4 m c

/-! ## The run, read -/

/-- Every run of the kernel's program ends with the result array at the dense layer of the node features, the weight
    and the bias, and the arguments unchanged. -/
theorem run : θ_run defs (onTc (τ := τ) (main (F := Ideal))) ⟨m, fun _ => 0, ρ⟩ fun r => ∀ c : Dev nD,
      r.2.mem ((c : Thread nD τ).loc main_v13)
        = dense (M := 100000) (K := 128) (N := 256)
            (nodeFeatures (m ((c : Thread nD τ).loc main_arg0)) (m ((c : Thread nD τ).loc main_arg1)) (m ((c : Thread nD τ).loc main_arg2)))
            (m ((c : Thread nD τ).loc main_arg3)) (m ((c : Thread nD τ).loc main_arg4))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans ((final m c).trans (by
      unfold layer
      rw [feats_eq, wts_eq, bias_eq, truncf_id, truncf_id])), (h c).2⟩)
    (run_blocks m ρ)

end Cert.KernelIdeal.KDense

end
-- ==== Proof.lean ====
/-
  A graph convolution against its reference, over the extended reals.

  For every node the features of its in-neighbours are summed along the edge list (gather by source, sum into
  destination), the node's own features are added, and the result `h` goes through one dense layer: `h · W + b`.

  Both programs compute the node features `h` by the same operations on the same arguments, so `h` is one closed term on
  both sides and is never opened. They differ only in how the dense layer is written. The kernel first changes the
  number format of `h` and `W`, which is the identity at the ideal values, and then, for ten blocks of 10000 rows,
  takes the product of the row block with `W` into a zero accumulator and adds the bias repeated down the block. The
  reference takes one product of the whole `h` with `W` and adds the bias broadcast over all rows. Entry by entry both
  are `(sum over k of h (p, k) · W (k, q)) + b q`; the ten row blocks tile the result. Nothing beyond reading the two
  products as the same finite sum is used, so the finiteness of the inputs is not needed.

  The three frames are the generated ones (the reference's is its generated run with the result dropped); no operation
  was rewritten when the kernel was idealized, so there is nothing to preserve.
-/
import proofs.«127564_j68908455297307_1_alg».proof.Defs
import proofs.«127564_j68908455297307_1_alg».proof.Proof.Gen.Kernel
import proofs.«127564_j68908455297307_1_alg».proof.Proof.Gen.Kernel.Skeleton
import proofs.«127564_j68908455297307_1_alg».proof.Proof.Gen.Kernel.Launch
import proofs.«127564_j68908455297307_1_alg».proof.Proof.Gen.Kernel.Points
import proofs.«127564_j68908455297307_1_alg».proof.Proof.Gen.Kernel.Frame
import proofs.«127564_j68908455297307_1_alg».proof.Proof.Gen.KernelIdeal
import proofs.«127564_j68908455297307_1_alg».proof.Proof.Gen.KernelIdeal.Skeleton
import proofs.«127564_j68908455297307_1_alg».proof.Proof.Gen.KernelIdeal.Launch
import proofs.«127564_j68908455297307_1_alg».proof.Proof.Gen.KernelIdeal.Points
import proofs.«127564_j68908455297307_1_alg».proof.Proof.Gen.KernelIdeal.Frame
import proofs.«127564_j68908455297307_1_alg».proof.Proof.Gen.ReferenceIdeal
import proofs.«127564_j68908455297307_1_alg».proof.Proof.Gen.Pre_finite_inputs
import proofs.«127564_j68908455297307_1_alg».proof.Proof.Gen.KernelIdeal.Value
import proofs.«127564_j68908455297307_1_alg».proof.Proof.Gen.ReferenceIdeal.Run
import proofs.«127564_j68908455297307_1_alg».proof.Proof.Gen.ReferenceIdeal.Read
import proofs.«127564_j68908455297307_1_alg».proof.Proof.RefDense
import proofs.«127564_j68908455297307_1_alg».proof.Proof.KernelDense
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_ideal : Cert.frame_KernelIdeal := fun m ρ _ => Cert.KernelIdeal.Gen.frame m ρ

theorem frame_reference : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- The node features are one term of the arguments in both programs: the same gather, the same sum into the
    destinations, the same self loop. -/
theorem features_same (x0 : FVec Ideal Cert.KernelIdeal.S100000x128 .f32) (x1 x2 : IVec Cert.KernelIdeal.S1600000 32) :
    Cert.ReferenceIdeal.Read.val_main_v10 (F := Ideal) x0 x1 x2 = Cert.KernelIdeal.KDense.nodeFeatures x0 x1 x2 := by
  unfold Cert.ReferenceIdeal.Read.val_main_v10 Cert.ReferenceIdeal.Read.val_main_v9 Cert.ReferenceIdeal.Read.val_main_v8
    Cert.ReferenceIdeal.Read.val_main_v7 Cert.ReferenceIdeal.Read.val_main_cst Cert.ReferenceIdeal.Read.val_main_v6
    Cert.ReferenceIdeal.Read.val_main_v5 Cert.ReferenceIdeal.Read.val_main_v4 Cert.ReferenceIdeal.Read.val_main_v3
    Cert.ReferenceIdeal.Read.val_main_v2 Cert.ReferenceIdeal.Read.val_main_c_0 Cert.ReferenceIdeal.Read.val_main_v1
    Cert.ReferenceIdeal.Read.val_main_v0 Cert.ReferenceIdeal.Read.val_main_c Cert.KernelIdeal.KDense.nodeFeatures
  rfl

/-- From memories that agree on the arguments both programs end with the dense layer of the node features in their
    result arrays. -/
theorem algebraic : Cert.algebraic_KernelIdeal_ReferenceIdeal := by
  intro m ρ m' ρ' _ hagree
  refine ⟨_, Cert.KernelIdeal.KDense.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v14_eq, Cert.ReferenceIdeal.RefDense.result_eq, features_same,
    (hagree c).1, (hagree c).2.1, (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_kernel, frame_ideal, frame_reference, preserves, algebraic⟩

end Cert.Proof

end
